-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x128 : Shape := ⟨2, ![65536, 128]⟩
abbrev S128x128 : Shape := ⟨2, ![128, 128]⟩
abbrev S128 : Shape := ⟨1, ![128]⟩
abbrev S_ : Shape := ⟨0, ![]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg14 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  main_v73

def fn_part3 {F : FTy → Type} [FloatOps F] (main_arg11 : FVec F S128 .f32) (main_arg12 : FVec F S128x128 .f32) (main_arg13 : FVec F S128x128 .f32) (main_arg14 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128x128 .f32 := Host.absf main_arg13
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg14 main_v63 main_v67

def fn_part2 {F : FTy → Type} [FloatOps F] (main_arg7 : FVec F S128x128 .f32) (main_arg8 : FVec F S128 .f32) (main_arg9 : FVec F S128x128 .f32) (main_arg10 : FVec F S128x128 .f32) (main_arg11 : FVec F S128 .f32) (main_arg12 : FVec F S128x128 .f32) (main_arg13 : FVec F S128x128 .f32) (main_arg14 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_arg14 main_v48 main_v49 main_v50

def fn_part1 {F : FTy → Type} [FloatOps F] (main_arg4 : FVec F S128x128 .f32) (main_arg5 : FVec F S128 .f32) (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_arg12 : FVec F S128x128 .f32) (main_arg13 : FVec F S128x128 .f32) (main_arg14 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S65536x128 .f32) (main_arg1 : FVec F S65536x128 .f32) (main_arg2 : FVec F S65536x128 .f32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_arg12 : FVec F S128x128 .f32) (main_arg13 : FVec F S128x128 .f32) (main_arg14 : FVec F S128 .f32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_v4 : FVec F S65536x128 .f32 := Host.absf main_arg1
  let main_cst_0 : FVec F S_ .f32 := constant S_ .f32 0x7F800000#32
  let main_v5 : FVec F S65536x128 .f32 := broadcastInDim S65536x128 ![] bcast_S_S65536x128 main_cst_0
  let main_v6 : IVec S65536x128 1 := cmpf .olt main_v4 main_v5
  let main_c_1 : IVec S_ 1 := constantI S_ 1 1#1
  let main_v7 : IVec S_ 1 := (fun x v => Host.reduce IntOp.andi x v reducesTo_S65536x128_S_d0_1 h_S_) main_v6 main_c_1
  let main_v8 : IVec S_ 1 := andi main_v3 main_v7
  let main_v9 : FVec F S65536x128 .f32 := Host.absf main_arg2
  let main_cst_2 : FVec F S_ .f32 := constant S_ .f32 0x7F800000#32
  let main_v10 : FVec F S65536x128 .f32 := broadcastInDim S65536x128 ![] bcast_S_S65536x128 main_cst_2
  let main_v11 : IVec S65536x128 1 := cmpf .olt main_v9 main_v10
  let main_c_3 : IVec S_ 1 := constantI S_ 1 1#1
  let main_v12 : IVec S_ 1 := (fun x v => Host.reduce IntOp.andi x v reducesTo_S65536x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S65536x128 : Shape := ⟨2, ![65536, 128]⟩
abbrev S128x128 : Shape := ⟨2, ![128, 128]⟩
abbrev S128 : Shape := ⟨1, ![128]⟩
abbrev S512x128 : Shape := ⟨2, ![512, 128]⟩
abbrev S512 : Shape := ⟨1, ![512]⟩
abbrev S128x512 : Shape := ⟨2, ![128, 512]⟩
abbrev S1x512 : Shape := ⟨2, ![1, 512]⟩
abbrev S2048x128 : Shape := ⟨2, ![2048, 128]⟩
abbrev S2048x512 : Shape := ⟨2, ![2048, 512]⟩

abbrev nBuf : Space → Nat
  | .hbm => 23
  | .vmem => 13
  | .smem => 0
  | _ => 0

abbrev bufTy : (tb : Table) → Fin (tcTables nBuf tb) → BufTy
  | .hbm, ⟨0, _⟩ => ⟨S65536x128, .f32⟩
  | .hbm, ⟨1, _⟩ => ⟨S65536x128, .f32⟩
  | .hbm, ⟨2, _⟩ => ⟨S65536x128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128x128, .f32⟩
  | .hbm, ⟨14, _⟩ => ⟨S128, .f32⟩
  | .hbm, ⟨15, _⟩ => ⟨S512x128, .f32⟩
  | .hbm, ⟨16, _⟩ => ⟨S512x128, .f32⟩
  | .hbm, ⟨17, _⟩ => ⟨S512, .f32⟩
  | .hbm, ⟨18, _⟩ => ⟨S128x512, .f32⟩
  | .hbm, ⟨19, _⟩ => ⟨S128x512, .f32⟩
  | .hbm, ⟨20, _⟩ => ⟨S1x512, .f32⟩
  | .hbm, ⟨21, _⟩ => ⟨S65536x128, .f32⟩
  | .hbm, ⟨22, _⟩ => ⟨S65536x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S128x512, .f32⟩
  | .local _ .vmem, ⟨7, _⟩ => ⟨S128x512, .f32⟩
  | .local _ .vmem, ⟨8, _⟩ => ⟨S1x512, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6_0 : Ref sig .tc := ⟨.hbm, 21, rfl⟩
abbrev main_v6_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S128x128_S128x128_S128x128_S128x128_S512x128_d0 : Shape.Concatenates [S128x128, S128x128, S128x128, S128x128] S512x128 0
  concatenates_S128_S128_S128_S128_S512_d0 : Shape.Concatenates [S128, S128, S128, S128] S512 0
  transposes_S512x128_S128x512_1_0 : S512x128.Transposes [1, 0] S128x512
  shapeCasts_S512_S1x512 : S512.ShapeCasts S1x512
  inb_S2048x128_S2048x128_0_0 : ∀ a, (![0, 0] : Fin 2 → Nat) a + S2048x128.size a ≤ S2048x128.size a
  h_S2048x128 : 0 < S2048x128.numel
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  slices_S2048x512_o0_0_S2048x128 : S2048x512.Slices ![0, 0] S2048x128
  slices_S2048x512_o0_128_S2048x128 : S2048x512.Slices ![0, 128] S2048x128
  slices_S2048x512_o0_256_S2048x128 : S2048x512.Slices ![0, 256] S2048x128
  slices_S2048x512_o0_384_S2048x128 : S2048x512.Slices ![0, 384] S2048x128
  dot_S2048x128_S128x512_S2048x512_1_0_0_1_n_n_wf : DotDims.WF S2048x128 S128x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S65536x128.size a
  hwx0_0 : ∀ i : grid0.Coords, EltTy.bits .f32 = 32 ∨ (Rect.block (s := S65536x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S65536x128.size a
  hwx0_1 : ∀ i : grid0.Coords, EltTy.bits .f32 = 32 ∨ (Rect.block (s := S65536x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S65536x128.size a
  hwx0_2 : ∀ i : grid0.Coords, EltTy.bits .f32 = 32 ∨ (Rect.block (s := S65536x128) S2048x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .f32 = 32 ∨ (Rect.block (s := S128x512) S128x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x512.size a ≤ S128x512.size a
  hwx0_4 : ∀ i : grid0.Coords, EltTy.bits .f32 = 32 ∨ (Rect.block (s := S128x512) S128x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x128.size a ≤ S65536x128.size a
  hwx0_6 : ∀ i : grid0.Coords, EltTy.bits .f32 = 32 ∨ (Rect.block (s := S65536x128) S2048x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x128.size a ≤ S65536x128.size a
  hwx0_7 : ∀ i : grid0.Coords, EltTy.bits .f32 = 32 ∨ (Rect.block (s := S65536x128) S2048x128.size (cc0_transform_7 i) (hinb0_7 i)).WholeWords (EltTy.packing .f32)

variable [Facts₀]

def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S128x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S2048x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S2048x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S65536x128 : Shape := ⟨2, ![65536, 128]⟩
abbrev S128x128 : Shape := ⟨2, ![128, 128]⟩
abbrev S128 : Shape := ⟨1, ![128]⟩
abbrev S512x128 : Shape := ⟨2, ![512, 128]⟩
abbrev S512 : Shape := ⟨1, ![512]⟩
abbrev S128x512 : Shape := ⟨2, ![128, 512]⟩
abbrev S65536x512 : Shape := ⟨2, ![65536, 512]⟩
abbrev S1x512 : Shape := ⟨2, ![1, 512]⟩
abbrev S_ : Shape := ⟨0, ![]⟩

abbrev nBuf : Space → Nat
  | .hbm => 60
  | .vmem => 0
  | .smem => 0
  | _ => 0

abbrev bufTy : (tb : Table) → Fin (tcTables nBuf tb) → BufTy
  | .hbm, ⟨0, _⟩ => ⟨S65536x128, .f32⟩
  | .hbm, ⟨1, _⟩ => ⟨S65536x128, .f32⟩
  | .hbm, ⟨2, _⟩ => ⟨S65536x128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128x128, .f32⟩
  | .hbm, ⟨14, _⟩ => ⟨S128, .f32⟩
  | .hbm, ⟨15, _⟩ => ⟨S512x128, .f32⟩
  | .hbm, ⟨16, _⟩ => ⟨S512x128, .f32⟩
  | .hbm, ⟨17, _⟩ => ⟨S512, .f32⟩
  | .hbm, ⟨18, _⟩ => ⟨S128x512, .f32⟩
  | .hbm, ⟨19, _⟩ => ⟨S65536x512, .f32⟩
  | .hbm, ⟨20, _⟩ => ⟨S128x512, .f32⟩
  | .hbm, ⟨21, _⟩ => ⟨S65536x512, .f32⟩
  | .hbm, ⟨22, _⟩ => ⟨S65536x512, .f32⟩
  | .hbm, ⟨23, _⟩ => ⟨S1x512, .f32⟩
  | .hbm, ⟨24, _⟩ => ⟨S65536x512, .f32⟩
  | .hbm, ⟨25, _⟩ => ⟨S65536x512, .f32⟩
  | .hbm, ⟨26, _⟩ => ⟨S65536x128, .f32⟩
  | .hbm, ⟨27, _⟩ => ⟨S65536x128, .f32⟩
  | .hbm, ⟨28, _⟩ => ⟨S65536x128, .f32⟩
  | .hbm, ⟨29, _⟩ => ⟨S65536x128, .f32⟩
  | .hbm, ⟨30, _⟩ => ⟨S65536x128, .f32⟩
  | .hbm, ⟨31, _⟩ => ⟨S65536x128, .f32⟩
  | .hbm, ⟨32, _⟩ => ⟨S_, .f32⟩
  | .hbm, ⟨33, _⟩ => ⟨S65536x128, .f32⟩
  | .hbm, ⟨34, _⟩ => ⟨S65536x128, .f32⟩
  | .hbm, ⟨35, _⟩ => ⟨S_, .f32⟩
  | .hbm, ⟨36, _⟩ => ⟨S65536x128, .f32⟩
  | .hbm, ⟨37, _⟩ => ⟨S65536x128, .f32⟩
  | .hbm, ⟨38, _⟩ => ⟨S65536x128, .f32⟩
  | .hbm, ⟨39, _⟩ => ⟨S65536x128, .f32⟩
  | .hbm, ⟨40, _⟩ => ⟨S_, .f32⟩
  | .hbm, ⟨41, _⟩ => ⟨S65536x128, .f32⟩
  | .hbm, ⟨42, _⟩ => ⟨S65536x128, .f32⟩
  | .hbm, ⟨43, _⟩ => ⟨S_, .f32⟩
  | .hbm, ⟨44, _⟩ => ⟨S65536x128, .f32⟩
  | .hbm, ⟨45, _⟩ => ⟨S65536x128, .f32⟩
  | .hbm, ⟨46, _⟩ => ⟨S65536x128, .f32⟩
  | .hbm, ⟨47, _⟩ => ⟨S65536x128, .f32⟩
  | .hbm, ⟨48, _⟩ => ⟨S65536x128, .f32⟩
  | .hbm, ⟨49, _⟩ => ⟨S_, .f32⟩
  | .hbm, ⟨50, _⟩ => ⟨S65536x128, .f32⟩
  | .hbm, ⟨51, _⟩ => ⟨S65536x128, .f32⟩
  | .hbm, ⟨52, _⟩ => ⟨S_, .f32⟩
  | .hbm, ⟨53, _⟩ => ⟨S65536x128, .f32⟩
  | .hbm, ⟨54, _⟩ => ⟨S65536x128, .f32⟩
  | .hbm, ⟨55, _⟩ => ⟨S65536x128, .f32⟩
  | .hbm, ⟨56, _⟩ => ⟨S65536x128, .f32⟩
  | .hbm, ⟨57, _⟩ => ⟨S65536x128, .f32⟩
  | .hbm, ⟨58, _⟩ => ⟨S65536x128, .f32⟩
  | .hbm, ⟨59, _⟩ => ⟨S65536x128, .f32⟩
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst : Ref sig .tc := ⟨.hbm, 32, rfl⟩
abbrev main_v17 : Ref sig .tc := ⟨.hbm, 33, rfl⟩
abbrev main_v18 : Ref sig .tc := ⟨.hbm, 34, rfl⟩
abbrev main_cst_0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_1 : Ref sig .tc := ⟨.hbm, 40, rfl⟩
abbrev main_v23 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_3 : Ref sig .tc := ⟨.hbm, 49, rfl⟩
abbrev main_v30 : Ref sig .tc := ⟨.hbm, 50, rfl⟩
abbrev main_v31 : Ref sig .tc := ⟨.hbm, 51, rfl⟩
abbrev main_cst_4 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]

class Facts₀ : Prop where
  concatenates_S128x128_S128x128_S128x128_S128x128_S512x128_d0 : Shape.Concatenates [S128x128, S128x128, S128x128, S128x128] S512x128 0
  concatenates_S128_S128_S128_S128_S512_d0 : Shape.Concatenates [S128, S128, S128, S128] S512 0
  transposes_S512x128_S128x512_1_0 : S512x128.Transposes [1, 0] S128x512
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  slices_S65536x512_S65536x128_0_0 : S65536x512.Slices ![0, 0] S65536x128
  slices_S65536x512_S65536x128_0_128 : S65536x512.Slices ![0, 128] S65536x128
  slices_S65536x512_S65536x128_0_256 : S65536x512.Slices ![0, 256] S65536x128
  slices_S65536x512_S65536x128_0_384 : S65536x512.Slices ![0, 384] S65536x128
  bcast_S_S65536x128 : S_.BroadcastsInDim S65536x128 (![] : Fin 0 → Fin S65536x128.rank)
  dot_S65536x128_S128x512_S65536x512_1_0_0_1_n_n_wf : DotDims.WF S65536x128 S128x512 S65536x512 [1] [0] [0] [1] [] []

variable [Facts₀]

def dot_S65536x128_S128x512_S65536x512_1_0_0_1_n_n : DotDims S65536x128 S128x512 S65536x512 where
  lhsContracting := [1]
  rhsContracting := [0]
  lhsNonContracting := [0]
  rhsNonContracting := [1]
  lhsBatch := []
  rhsBatch := []
  wf := dot_S65536x128_S128x512_S65536x512_1_0_0_1_n_n_wf

class Facts : Prop extends Facts₀ where

variable [Facts]
-- ==== Proof.BitsFrame.lean ====
/-
  The frame of the LSTM-cell program: one pipelined region over 32 row tiles of 2048 rows, entered after six host
  operations that stack the four gates' weights and biases (three concatenations), transpose the two stacked weight
  matrices and reshape the stacked bias into a row.

  At a tile the body reads the tile's rows of x, h and c, the two whole transposed weight matrices and the bias row,
  and overwrites its two result tiles whole: the new hidden state (the third payload) and the new cell state (the
  second payload), each a pure function of the six blocks read.  So what a result buffer holds after the body is a
  single covering piece over those blocks, an input buffer is left as found, and the pipeline's launch theorem gives
  the run: every array of the region ends at what the write-backs put there, every other buffer as the region found
  it.  No host operation writes an argument, so each of the fifteen argument arrays ends as launched.
-/
import proofs.«171560_j74612171866302_1_alg».proof.Proof.Gen.Kernel.Launch
import proofs.«171560_j74612171866302_1_alg».proof.Proof.Gen.Kernel.Skeleton
import proofs.«171560_j74612171866302_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its region -/

/-- What core `c`'s buffers hold when the region is entered: the launch contents after the six host operations. -/
abbrev V (c : Dev nD) (b : Ref sig .tc) : Buf (Elt F) ((c : Thread nD τ).loc b) :=
  StableHlo.after hostOps0 (fun b => m (c, b)) b

/-- The host operations allocate nothing. -/
theorem hostOps0_fresh : (hostOps0 : List (HloOp τ sig (Elt F))).Forall fun op => op.fresh = ∅ := by
  simp only [List.Forall]; repeat' constructor

/-- The program is its host operations followed by the region, entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-! ## The windows' blocks -/

/-- Window `w`'s block at tile `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current buffer holds its block at every tile, whether the pipeline fetched it there (the three
    row-tiled operands, at every tile) or not (the weights and the bias, fetched at the first tile only: their block
    index never moves), for any proof data over the region-entry arrays whose body leaves the block in place. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame from a run to the launch theorem's post -/

/-- In a final state with the region's arrays at what the library computes from proof data over the region-entry
    arrays, and every other buffer as the region found it, the fifteen arguments are as launched: x, h and c are
    input windows' arrays, so they end at their entry contents; the twelve weights and biases are no window's array;
    and the entry contents of an argument are its launch contents. -/
theorem kept_args (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  ⟨((h c).1 0).trans (((dats 0 c).arrAt_in 0 rfl _).trans ((hA c 0).trans (V_main_arg0 m c))),
    ((h c).1 1).trans (((dats 0 c).arrAt_in 1 rfl _).trans ((hA c 1).trans (V_main_arg1 m c))),
    ((h c).1 2).trans (((dats 0 c).arrAt_in 2 rfl _).trans ((hA c 2).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c),
    ((h c).2 main_arg13 (Pipeline.mem_restRefs_of main_arg13 (by decide) (by decide))).trans (V_main_arg13 m c),
    ((h c).2 main_arg14 (Pipeline.mem_restRefs_of main_arg14 (by decide) (by decide))).trans (V_main_arg14 m c)⟩

/-- So a run to that post is the frame claim's run. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => kept_args m dats hA r h c) h

/-! ## The body's accesses -/

/-- A whole row tile, a whole weight matrix, the whole bias row. -/
abbrev rTile : Rect S2048x128 := Rect.unit (s := S2048x128) ![0, 0] S2048x128.size inb_S2048x128_S2048x128_0_0
abbrev rWeight : Rect S128x512 := Rect.unit (s := S128x512) ![0, 0] S128x512.size inb_S128x512_S128x512_0_0
abbrev rBias : Rect S1x512 := Rect.unit (s := S1x512) ![0, 0] S1x512.size inb_S1x512_S1x512_0_0

/-! ## What the body leaves in the two result buffers -/

/-- The new hidden state's buffer after the body: one store of the whole tile, of the blocks of x, h, c, the two
    weight matrices and the bias. -/
def outH (x0 x1 x2 : Vec F S2048x128 .f32) (x3 x4 : Vec F S128x512 .f32) (x5 : Vec F S1x512 .f32) : Vec F S2048x128 .f32 :=
  View.canon [⟨rTile, k0_pay3 (View.ld x0 rTile) (View.ld x1 rTile) (View.ld x3 rWeight) (View.ld x4 rWeight) (View.ld x5 rBias) (View.ld x2 rTile)⟩]

/-- The new cell state's buffer after the body, likewise. -/
def outC (x0 x1 x2 : Vec F S2048x128 .f32) (x3 x4 : Vec F S128x512 .f32) (x5 : Vec F S1x512 .f32) : Vec F S2048x128 .f32 :=
  View.canon [⟨rTile, k0_pay2 (View.ld x0 rTile) (View.ld x1 rTile) (View.ld x3 rWeight) (View.ld x4 rWeight) (View.ld x5 rBias) (View.ld x2 rTile)⟩]

/-- The one store covers the buffer. -/
theorem coverTile (p0 : Vec F S2048x128 .f32) (y : S2048x128.Idx) :
    ∃ pc ∈ ([⟨rTile, p0⟩] : List (View.Piece (Elt F) S2048x128 .f32)), y ∈ pc.1.set :=
  View.cover_of_tiled [⟨rTile, p0⟩] S2048x128.size (by rfl) y

/-! ## The body's triple -/

set_option maxHeartbeats 1000000 in
/-- The body on whole staging buffers, the six inputs' at read contents and the two results' at anything, runs to the
    continuation holding the inputs' as they were and the results' at `outH` and `outC` of the inputs'. -/
theorem sound_kernel (c : Dev nD) (E : Set ℕ) (i : grid0.Coords)
    (arg1 : Memref sig .tc .vmem S2048x128 .f32) (harg1 : arg1.IsWhole) (arg2 : Memref sig .tc .vmem S2048x128 .f32) (harg2 : arg2.IsWhole)
    (arg3 : Memref sig .tc .vmem S2048x128 .f32) (harg3 : arg3.IsWhole) (arg4 : Memref sig .tc .vmem S128x512 .f32) (harg4 : arg4.IsWhole)
    (arg5 : Memref sig .tc .vmem S128x512 .f32) (harg5 : arg5.IsWhole) (arg6 : Memref sig .tc .vmem S1x512 .f32) (harg6 : arg6.IsWhole)
    (arg7 : Memref sig .tc .vmem S2048x128 .f32) (harg7 : arg7.IsWhole) (arg8 : Memref sig .tc .vmem S2048x128 .f32) (harg8 : arg8.IsWhole)
    (x0 x1 x2 : Vec F S2048x128 .f32) (x3 x4 : Vec F S128x512 .f32) (x5 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outH x0 x1 x2 x3 x4 x5) ∗ owns (c : Thread nD τ) arg8 fullShare (outC x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverTile _)
  iexists _; isplitr
  swap; · iexact H7
  ipureintro
  exact View.read_writes_eq_canon _ _ _ (coverTile _)

/-! ## The pipeline's proof data -/

/-- The proof data on core `c`: the arrays as the region finds them; after the body at tile `t` each input's buffer
    at its block and the two results' at `outH` and `outC` of the six input blocks; the invariant that of a body using
    nothing of its own; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outH (iblk m c 0 t) (iblk m c 1 t) (iblk m c 2 t) (iblk m c 3 t) (iblk m c 4 t) (iblk m c 5 t)
    | ⟨7, _⟩ => outC (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outH (iblk m c 0 t) (iblk m c 1 t) (iblk m c 2 t) (iblk m c 3 t) (iblk m c 4 t) (iblk m c 5 t) := by dsimp only [dats]
theorem after0_7 (c : Dev nD) (t : Fin cfg0.N) : (dats m 0 c).after 7 t = outC (iblk m c 0 t) (iblk m c 1 t) (iblk m c 2 t) (iblk m c 3 t) (iblk m c 4 t) (iblk m c 5 t) := by dsimp only [dats]

/-- Each input's current buffer holds its block at every tile. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic tile -/

/-- What the body is called with at tile `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any tile: the inputs' buffers hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every tile. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state
    has each array of the region at what the library computes from the proof data and every other unscoped buffer as
    the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere, and leaves its fifteen arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.Kernel.Frm

end
-- ==== Proof.IdealFrame.lean ====
/-
  The frame of the LSTM-cell program: one pipelined region over 32 row tiles of 2048 rows, entered after six host
  operations that stack the four gates' weights and biases (three concatenations), transpose the two stacked weight
  matrices and reshape the stacked bias into a row.

  At a tile the body reads the tile's rows of x, h and c, the two whole transposed weight matrices and the bias row,
  and overwrites its two result tiles whole: the new hidden state (the third payload) and the new cell state (the
  second payload), each a pure function of the six blocks read.  So what a result buffer holds after the body is a
  single covering piece over those blocks, an input buffer is left as found, and the pipeline's launch theorem gives
  the run: every array of the region ends at what the write-backs put there, every other buffer as the region found
  it.  No host operation writes an argument, so each of the fifteen argument arrays ends as launched.
-/
import proofs.«171560_j74612171866302_1_alg».proof.Proof.Gen.KernelIdeal.Launch
import proofs.«171560_j74612171866302_1_alg».proof.Proof.Gen.KernelIdeal.Skeleton
import proofs.«171560_j74612171866302_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its region -/

/-- What core `c`'s buffers hold when the region is entered: the launch contents after the six host operations. -/
abbrev V (c : Dev nD) (b : Ref sig .tc) : Buf (Elt F) ((c : Thread nD τ).loc b) :=
  StableHlo.after hostOps0 (fun b => m (c, b)) b

/-- The host operations allocate nothing. -/
theorem hostOps0_fresh : (hostOps0 : List (HloOp τ sig (Elt F))).Forall fun op => op.fresh = ∅ := by
  simp only [List.Forall]; repeat' constructor

/-- The program is its host operations followed by the region, entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-! ## The windows' blocks -/

/-- Window `w`'s block at tile `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current buffer holds its block at every tile, whether the pipeline fetched it there (the three
    row-tiled operands, at every tile) or not (the weights and the bias, fetched at the first tile only: their block
    index never moves), for any proof data over the region-entry arrays whose body leaves the block in place. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame from a run to the launch theorem's post -/

/-- In a final state with the region's arrays at what the library computes from proof data over the region-entry
    arrays, and every other buffer as the region found it, the fifteen arguments are as launched: x, h and c are
    input windows' arrays, so they end at their entry contents; the twelve weights and biases are no window's array;
    and the entry contents of an argument are its launch contents. -/
theorem kept_args (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  ⟨((h c).1 0).trans (((dats 0 c).arrAt_in 0 rfl _).trans ((hA c 0).trans (V_main_arg0 m c))),
    ((h c).1 1).trans (((dats 0 c).arrAt_in 1 rfl _).trans ((hA c 1).trans (V_main_arg1 m c))),
    ((h c).1 2).trans (((dats 0 c).arrAt_in 2 rfl _).trans ((hA c 2).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c),
    ((h c).2 main_arg13 (Pipeline.mem_restRefs_of main_arg13 (by decide) (by decide))).trans (V_main_arg13 m c),
    ((h c).2 main_arg14 (Pipeline.mem_restRefs_of main_arg14 (by decide) (by decide))).trans (V_main_arg14 m c)⟩

/-- So a run to that post is the frame claim's run. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => kept_args m dats hA r h c) h

/-! ## The body's accesses -/

/-- A whole row tile, a whole weight matrix, the whole bias row. -/
abbrev rTile : Rect S2048x128 := Rect.unit (s := S2048x128) ![0, 0] S2048x128.size inb_S2048x128_S2048x128_0_0
abbrev rWeight : Rect S128x512 := Rect.unit (s := S128x512) ![0, 0] S128x512.size inb_S128x512_S128x512_0_0
abbrev rBias : Rect S1x512 := Rect.unit (s := S1x512) ![0, 0] S1x512.size inb_S1x512_S1x512_0_0

/-! ## What the body leaves in the two result buffers -/

/-- The new hidden state's buffer after the body: one store of the whole tile, of the blocks of x, h, c, the two
    weight matrices and the bias. -/
def outH (x0 x1 x2 : Vec F S2048x128 .f32) (x3 x4 : Vec F S128x512 .f32) (x5 : Vec F S1x512 .f32) : Vec F S2048x128 .f32 :=
  View.canon [⟨rTile, k0_pay3 (View.ld x0 rTile) (View.ld x1 rTile) (View.ld x3 rWeight) (View.ld x4 rWeight) (View.ld x5 rBias) (View.ld x2 rTile)⟩]

/-- The new cell state's buffer after the body, likewise. -/
def outC (x0 x1 x2 : Vec F S2048x128 .f32) (x3 x4 : Vec F S128x512 .f32) (x5 : Vec F S1x512 .f32) : Vec F S2048x128 .f32 :=
  View.canon [⟨rTile, k0_pay2 (View.ld x0 rTile) (View.ld x1 rTile) (View.ld x3 rWeight) (View.ld x4 rWeight) (View.ld x5 rBias) (View.ld x2 rTile)⟩]

/-- The one store covers the buffer. -/
theorem coverTile (p0 : Vec F S2048x128 .f32) (y : S2048x128.Idx) :
    ∃ pc ∈ ([⟨rTile, p0⟩] : List (View.Piece (Elt F) S2048x128 .f32)), y ∈ pc.1.set :=
  View.cover_of_tiled [⟨rTile, p0⟩] S2048x128.size (by rfl) y

/-! ## The body's triple -/

set_option maxHeartbeats 1000000 in
/-- The body on whole staging buffers, the six inputs' at read contents and the two results' at anything, runs to the
    continuation holding the inputs' as they were and the results' at `outH` and `outC` of the inputs'. -/
theorem sound_kernel (c : Dev nD) (E : Set ℕ) (i : grid0.Coords)
    (arg1 : Memref sig .tc .vmem S2048x128 .f32) (harg1 : arg1.IsWhole) (arg2 : Memref sig .tc .vmem S2048x128 .f32) (harg2 : arg2.IsWhole)
    (arg3 : Memref sig .tc .vmem S2048x128 .f32) (harg3 : arg3.IsWhole) (arg4 : Memref sig .tc .vmem S128x512 .f32) (harg4 : arg4.IsWhole)
    (arg5 : Memref sig .tc .vmem S128x512 .f32) (harg5 : arg5.IsWhole) (arg6 : Memref sig .tc .vmem S1x512 .f32) (harg6 : arg6.IsWhole)
    (arg7 : Memref sig .tc .vmem S2048x128 .f32) (harg7 : arg7.IsWhole) (arg8 : Memref sig .tc .vmem S2048x128 .f32) (harg8 : arg8.IsWhole)
    (x0 x1 x2 : Vec F S2048x128 .f32) (x3 x4 : Vec F S128x512 .f32) (x5 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outH x0 x1 x2 x3 x4 x5) ∗ owns (c : Thread nD τ) arg8 fullShare (outC x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverTile _)
  iexists _; isplitr
  swap; · iexact H7
  ipureintro
  exact View.read_writes_eq_canon _ _ _ (coverTile _)

/-! ## The pipeline's proof data -/

/-- The proof data on core `c`: the arrays as the region finds them; after the body at tile `t` each input's buffer
    at its block and the two results' at `outH` and `outC` of the six input blocks; the invariant that of a body using
    nothing of its own; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outH (iblk m c 0 t) (iblk m c 1 t) (iblk m c 2 t) (iblk m c 3 t) (iblk m c 4 t) (iblk m c 5 t)
    | ⟨7, _⟩ => outC (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outH (iblk m c 0 t) (iblk m c 1 t) (iblk m c 2 t) (iblk m c 3 t) (iblk m c 4 t) (iblk m c 5 t) := by dsimp only [dats]
theorem after0_7 (c : Dev nD) (t : Fin cfg0.N) : (dats m 0 c).after 7 t = outC (iblk m c 0 t) (iblk m c 1 t) (iblk m c 2 t) (iblk m c 3 t) (iblk m c 4 t) (iblk m c 5 t) := by dsimp only [dats]

/-- Each input's current buffer holds its block at every tile. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic tile -/

/-- What the body is called with at tile `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any tile: the inputs' buffers hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every tile. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state
    has each array of the region at what the library computes from the proof data and every other unscoped buffer as
    the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere, and leaves its fifteen arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.KernelIdeal.Frm

end
-- ==== Proof.Cell.lean ====
/-
  The LSTM cell on the extended reals, one entry at a time.

  For one batch row, with `xr` and `hr` the row's 128 entries of the input and of the previous hidden state, `WX` and
  `WH` the two 128 × 512 stacked and transposed weight matrices and `B` the 512 stacked biases, the pre-activation
  of stacked column `col` is

      pre col = (Σ_l xr l · WX[l, col] + Σ_l hr l · WH[l, col]) + B col,

  the four gates of hidden unit `q` read the columns q, 128 + q, 256 + q and 384 + q (input, forget, cell, output), and

      c' = σ(pre (128 + q)) · c + σ(pre q) · tanh (pre (256 + q)),      h' = σ(pre (384 + q)) · tanh c',

  with σ x = 1 / (1 + e^(−x)).  Both programs compute exactly these expressions, the sums taken in one order or
  another, so no law beyond unfolding the operations is needed to join them.
-/
import Idealize.ShloMosaic.Lib.ValueIdx
import Idealize.ShloMosaic.Lib.Pipeline.Value
import Idealize.ShloMosaic.PureOps.Ideal.Laws

noncomputable section

namespace Cert.Lstm

open Idealize.ShloMosaic Idealize.ShloMosaic.ValueIdx

/-- A stacked column of gate `g` (0 input, 1 forget, 2 cell, 3 output) and hidden unit `q`. -/
abbrev gcol (g : ℕ) (hg : g < 4) (q : Fin 128) : Fin 512 := ⟨128 * g + q.val, by have := q.isLt; omega⟩

/-- The pre-activation of one stacked column for one batch row. -/
def pre (xr hr : Fin 128 → Ideal .f32) (WX WH : FVec Ideal ⟨2, ![128, 512]⟩ .f32) (B : Fin 512 → Ideal .f32) (col : Fin 512) : Ideal .f32 :=
  (∑ l : Fin 128, xr l * WX (ix2 l col) + ∑ l : Fin 128, hr l * WH (ix2 l col)) + B col

/-- The new cell state of hidden unit `q` for one batch row whose previous cell state there is `cv`. -/
def cellC (xr hr : Fin 128 → Ideal .f32) (cv : Ideal .f32) (WX WH : FVec Ideal ⟨2, ![128, 512]⟩ .f32) (B : Fin 512 → Ideal .f32) (q : Fin 128) : Ideal .f32 :=
  Ideal.logistic (pre xr hr WX WH B (gcol 1 (by omega) q)) * cv
    + Ideal.logistic (pre xr hr WX WH B (gcol 0 (by omega) q)) * Ideal.tanh (pre xr hr WX WH B (gcol 2 (by omega) q))

/-- The new hidden state of hidden unit `q` for that row. -/
def cellH (xr hr : Fin 128 → Ideal .f32) (cv : Ideal .f32) (WX WH : FVec Ideal ⟨2, ![128, 512]⟩ .f32) (B : Fin 512 → Ideal .f32) (q : Fin 128) : Ideal .f32 :=
  Ideal.logistic (pre xr hr WX WH B (gcol 3 (by omega) q)) * Ideal.tanh (cellC xr hr cv WX WH B q)

/-- The new cell state over the whole batch, as one function of the argument arrays. -/
def newC (X H C : FVec Ideal ⟨2, ![65536, 128]⟩ .f32) (WX WH : FVec Ideal ⟨2, ![128, 512]⟩ .f32) (B : Fin 512 → Ideal .f32) :
    FVec Ideal ⟨2, ![65536, 128]⟩ .f32 :=
  fun j => cellC (fun l => X (ix2 (j 0) l)) (fun l => H (ix2 (j 0) l)) (C j) WX WH B (j 1)

/-- The new hidden state over the whole batch. -/
def newH (X H C : FVec Ideal ⟨2, ![65536, 128]⟩ .f32) (WX WH : FVec Ideal ⟨2, ![128, 512]⟩ .f32) (B : Fin 512 → Ideal .f32) :
    FVec Ideal ⟨2, ![65536, 128]⟩ .f32 :=
  fun j => cellH (fun l => X (ix2 (j 0) l)) (fun l => H (ix2 (j 0) l)) (C j) WX WH B (j 1)

/-! ## Reading a gate's columns out of the stacked pre-activations -/

/-- The 128 columns of gate `g`, cut out of an array of 512 stacked columns, read at (p, q): the array at column
    128 g + q. -/
theorem gate_slice_apply {M : ℕ} (g : ℕ) (hg : g < 4) (off : Fin 2 → ℕ) (h0 : off 0 = 0) (h1 : off 1 = 128 * g)
    (x : FVec Ideal ⟨2, ![M, 512]⟩ .f32) (h : (⟨2, ![M, 512]⟩ : Shape).Slices off ⟨2, ![M, 128]⟩) (p : Fin M) (q : Fin 128) :
    extractStridedSlice ⟨2, ![M, 128]⟩ off x h (ix2 p q) = x (ix2 p (gcol g hg q)) :=
  extractStridedSlice_apply off x h (ix2 p q) (ix2 p (gcol g hg q)) (fun a => by
    match a with
    | ⟨0, _⟩ => show p.val = off 0 + p.val; rw [h0, Nat.zero_add]
    | ⟨1, _⟩ => show 128 * g + q.val = off 1 + q.val; rw [h1])

end Cert.Lstm

end
-- ==== Proof.LibMatmulPlain.lean ====
/-
  A matrix product with no batch axis, rows × contraction by contraction × columns, read at one entry on the extended
  reals: into a zero accumulator it is the plain sum over the contraction coordinate of the products of the two
  operands' entries.  Stated once for any extents and any dimension-number record of that pattern, for the vector
  unit's product and for the host's.
-/
import Idealize.ShloMosaic.Lib.ValueIdx
import Idealize.ShloMosaic.PureOps.Ideal.Laws

noncomputable section

namespace Cert.Gcn

open Idealize.ShloMosaic Idealize.ShloMosaic.ValueIdx

variable {M K N : ℕ}

/-- The dimension numbers contract the left operand's columns with the right operand's rows and keep the left rows
    and the right columns, with no batch axis. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

/-- The sum over the one-axis contraction index is the sum over its coordinate, the left operand read at
    (row, l) and the right at (l, column). -/
theorem plain_sum {φ₁ φ₂ : FTy} (D : DotDims ⟨2, ![M, K]⟩ ⟨2, ![K, N]⟩ ⟨2, ![M, N]⟩) (hD : IsPlain D)
    (A : FVec Ideal ⟨2, ![M, K]⟩ φ₁) (B : FVec Ideal ⟨2, ![K, N]⟩ φ₂) (p : Fin M) (q : Fin N) :
    ∑ k : D.contr.Idx, A (D.lhsIdx (ix2 p q) k) * B (D.rhsIdx (ix2 p q) k) = ∑ l : Fin K, A (ix2 p l) * B (ix2 l q) := by
  obtain ⟨lc, rc, ln, rn, lb, rb, wf⟩ := D
  obtain ⟨h1, h2, h3, h4, h5, h6⟩ := hD
  simp only at h1 h2 h3 h4 h5 h6
  subst h1 h2 h3 h4 h5 h6
  set D : DotDims ⟨2, ![M, K]⟩ ⟨2, ![K, N]⟩ ⟨2, ![M, N]⟩ := ⟨[1], [0], [0], [1], [], [], wf⟩ with hDdef
  rw [← Equiv.sum_comp (contrEquiv1 D K rfl rfl).symm]
  refine Finset.sum_congr rfl fun l _ => ?_
  have hk := contrEquiv1_symm_val D K rfl rfl l
  have l0 : ∀ (i : (⟨2, ![M, N]⟩ : Shape).Idx) (k : D.contr.Idx), (D.lhsIdx i k 0).val = (i 0).val := by
    intro i k
    unfold DotDims.lhsIdx
    rw [dif_neg (show ¬(0 : Fin 2) ∈ ([] : List (Fin 2)) by decide), dif_pos (show (0 : Fin 2) ∈ ([0] : List (Fin 2)) by decide)]
    rfl
  have l1 : ∀ (i : (⟨2, ![M, N]⟩ : Shape).Idx) (k : D.contr.Idx), (D.lhsIdx i k 1).val = (k ⟨0, Nat.one_pos⟩).val :=
    fun i k => D.lhsIdx_val_of_single rfl i k
  have r0 : ∀ (i : (⟨2, ![M, N]⟩ : Shape).Idx) (k : D.contr.Idx), (D.rhsIdx i k 0).val = (k ⟨0, Nat.one_pos⟩).val :=
    fun i k => D.rhsIdx_val_of_single rfl i k
  have r1 : ∀ (i : (⟨2, ![M, N]⟩ : Shape).Idx) (k : D.contr.Idx), (D.rhsIdx i k 1).val = (i 1).val := by
    intro i k
    unfold DotDims.rhsIdx
    rw [dif_neg (show ¬(1 : Fin 2) ∈ ([] : List (Fin 2)) by decide), dif_pos (show (1 : Fin 2) ∈ ([1] : List (Fin 2)) by decide)]
    rfl
  have el : D.lhsIdx (ix2 p q) ((contrEquiv1 D K rfl rfl).symm l) = ix2 p l := funext fun a => Fin.ext (by
    match a with
    | ⟨0, _⟩ => exact l0 _ _
    | ⟨1, _⟩ => exact (l1 _ _).trans hk)
  have er : D.rhsIdx (ix2 p q) ((contrEquiv1 D K rfl rfl).symm l) = ix2 l q := funext fun a => Fin.ext (by
    match a with
    | ⟨0, _⟩ => exact (r0 _ _).trans hk
    | ⟨1, _⟩ => exact r1 _ _)
  rw [el, er]

/-- The vector unit's product into the zero accumulator, at entry (p, q). -/
theorem matmul_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    matmul D prec A B (constant (F := Ideal) ⟨2, ![M, N]⟩ .f32 0x00000000#32) (ix2 p q) = ∑ l : Fin K, A (ix2 p l) * B (ix2 l q) := by
  simp only [matmul]
  rw [Ideal.matmul_constant_zero_apply]
  exact plain_sum D hD A B p q

/-- The host's product, at entry (p, q). -/
theorem dotGeneral_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    Host.dotGeneral D prec A B (ix2 p q) = ∑ l : Fin K, A (ix2 p l) * B (ix2 l q) := by
  simp only [Host.dotGeneral]
  rw [Ideal.dotGeneral_apply]
  exact plain_sum D hD A B p q

end Cert.Gcn

end
-- ==== Proof.TilePoint.lean ====
/-
  The body's arithmetic at one entry of a tile.  With the tile's 2048 rows of x, h and c, the two stacked weight
  matrices and the bias row as the six blocks read, the stacked pre-activations at (p, col) are the cell's
  pre-activation of column col for the tile's row p — each matrix product into a zero accumulator is the plain sum
  over the 128 contracted entries, the narrowing to bf16 is the identity on the extended reals, and the bias row is
  repeated down the rows —, and the two stored values at (p, q) are the cell's new cell state and new hidden state
  of hidden unit q for that row.
-/
import proofs.«171560_j74612171866302_1_alg».proof.Proof.Gen.KernelIdeal.Skeleton
import proofs.«171560_j74612171866302_1_alg».proof.Proof.Cell
import proofs.«171560_j74612171866302_1_alg».proof.Proof.LibMatmulPlain

noncomputable section

namespace Cert.KernelIdeal.Tile

open Cert.KernelIdeal Cert.KernelIdeal.Gen Idealize.ShloMosaic Idealize.ShloMosaic.ValueIdx Cert.Lstm

/-- The body's product contracts the left operand's columns with the right operand's rows, with no batch axis. -/
theorem dot_plain : Cert.Gcn.IsPlain dot_S2048x128_S128x512_S2048x512_1_0_0_1_n_n := ⟨rfl, rfl, rfl, rfl, rfl, rfl⟩

/-- The stacked pre-activations at (p, col). -/
theorem pay1_apply (x0 x1 : Vec Ideal S2048x128 .f32) (w3 w4 : Vec Ideal S128x512 .f32) (b5 : Vec Ideal S1x512 .f32)
    (p : Fin 2048) (col : Fin 512) :
    k0_pay1 x0 x1 w3 w4 b5 (ix2 p col)
      = pre (fun l => x0 (ix2 p l)) (fun l => x1 (ix2 p l)) w3 w4 (fun j => b5 (ix2 (0 : Fin 1) j)) col := by
  unfold k0_pay1 pre
  simp only [addf_apply]
  rw [Cert.Gcn.matmul_plain_apply _ dot_plain, Cert.Gcn.matmul_plain_apply _ dot_plain]
  rw [broadcastTo_apply _ _ (ix2 p col) (ix2 (0 : Fin 1) col) (fun a => by match a with | ⟨0, _⟩ => rfl | ⟨1, _⟩ => rfl)]
  simp only [shapeCast_self, truncf_apply]

/-- The new cell state stored at (p, q). -/
theorem pay2_apply (x0 x1 x2 : Vec Ideal S2048x128 .f32) (w3 w4 : Vec Ideal S128x512 .f32) (b5 : Vec Ideal S1x512 .f32)
    (p : Fin 2048) (q : Fin 128) :
    k0_pay2 x0 x1 w3 w4 b5 x2 (ix2 p q)
      = cellC (fun l => x0 (ix2 p l)) (fun l => x1 (ix2 p l)) (x2 (ix2 p q)) w3 w4 (fun j => b5 (ix2 (0 : Fin 1) j)) q := by
  unfold k0_pay2 cellC
  simp only [addf_apply, mulf_apply, logistic, tanh, Ideal.logistic_def, Ideal.tanh_def]
  rw [gate_slice_apply 1 (by omega) _ rfl rfl, gate_slice_apply 0 (by omega) _ rfl rfl, gate_slice_apply 2 (by omega) _ rfl rfl]
  simp only [pay1_apply]

/-- The new hidden state stored at (p, q). -/
theorem pay3_apply (x0 x1 x2 : Vec Ideal S2048x128 .f32) (w3 w4 : Vec Ideal S128x512 .f32) (b5 : Vec Ideal S1x512 .f32)
    (p : Fin 2048) (q : Fin 128) :
    k0_pay3 x0 x1 w3 w4 b5 x2 (ix2 p q)
      = cellH (fun l => x0 (ix2 p l)) (fun l => x1 (ix2 p l)) (x2 (ix2 p q)) w3 w4 (fun j => b5 (ix2 (0 : Fin 1) j)) q := by
  unfold k0_pay3 cellH
  simp only [mulf_apply, logistic, tanh, Ideal.logistic_def, Ideal.tanh_def]
  rw [gate_slice_apply 3 (by omega) _ rfl rfl]
  simp only [pay1_apply, pay2_apply]

end Cert.KernelIdeal.Tile

end
-- ==== Proof.IdealValue.lean ====
/-
  What the idealized kernel's two result arrays hold after the run, as whole-array functions of what the region
  finds.

  Tile t of a row-tiled operand is rows 2048 t … 2048 t + 2047 of its array, the weights' and the bias's block is
  their whole array at every tile, and tile t of a result is rows 2048 t … of the result's array.  So what tile t
  writes back, entry (p, q) of the body's stored value over the six blocks, is the cell's formula for batch row
  2048 t + p and hidden unit q over the whole arrays: block t of one function of the arrays.  Every row lies in
  exactly the tile its quotient by 2048 names, so the tiles cover the result and the result ends holding that
  function.  The arrays the region finds are the launch arguments (x, h, c) and the host operations' results: the
  two stacked weight matrices transposed and the stacked bias as a row.
-/
import proofs.«171560_j74612171866302_1_alg».proof.Proof.IdealFrame
import proofs.«171560_j74612171866302_1_alg».proof.Proof.TilePoint
import Idealize.ShloMosaic.Lib.Pipeline.Value
import Idealize.ShloMosaic.Lib.StableHlo.Run

set_option maxRecDepth 16384

noncomputable section

namespace Cert.KernelIdeal.Val

open Cert.KernelIdeal Cert.KernelIdeal.Gen Cert.KernelIdeal.Frm Cert.KernelIdeal.Tile Cert.Lstm
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The arrays the region finds, at their literal types -/

abbrev aX (c : Dev nD) : FVec Ideal S65536x128 .f32 := V m c main_arg0
abbrev aH (c : Dev nD) : FVec Ideal S65536x128 .f32 := V m c main_arg1
abbrev aC (c : Dev nD) : FVec Ideal S65536x128 .f32 := V m c main_arg2
abbrev aWX (c : Dev nD) : FVec Ideal S128x512 .f32 := V m c main_v3
abbrev aWH (c : Dev nD) : FVec Ideal S128x512 .f32 := V m c main_v4
abbrev aBrow (c : Dev nD) : FVec Ideal S1x512 .f32 := V m c main_v5
/-- The bias row's entries. -/
abbrev aB (c : Dev nD) : Fin 512 → Ideal .f32 := fun j => aBrow m c (ix2 (0 : Fin 1) j)

/-- The two results as functions of those arrays. -/
abbrev GH (c : Dev nD) : FVec Ideal S65536x128 .f32 := newH (aX m c) (aH m c) (aC m c) (aWX m c) (aWH m c) (aB m c)
abbrev GC (c : Dev nD) : FVec Ideal S65536x128 .f32 := newC (aX m c) (aH m c) (aC m c) (aWX m c) (aWH m c) (aB m c)

/-! ## Where the blocks lie -/

/-- The block indices over the 32 tiles: a row-tiled window's block index is the tile's number on the rows and 0 on the
    columns; the weights' and the bias's is 0 on both axes. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Row `p` of tile `t` is batch row 2048 t + p. -/
def row (t : Fin cfg0.N) (p : Fin 2048) : Fin 65536 :=
  ⟨t.val * 2048 + p.val, by have h : t.val < 32 := lt_of_lt_of_eq t.isLt (N_0 : cfg0.N = 32); have := p.isLt; omega⟩

theorem row_val (t : Fin cfg0.N) (p : Fin 2048) : (row t p).val = t.val * 2048 + p.val := rfl

theorem emb_tile0 (t : Fin cfg0.N) (p : Fin 2048) (l : Fin 128) :
    ((cfg0.win 0).blk t).view.emb (ix2 p l) = ix2 (row t p) l := by
  obtain ⟨e0, e1, e2, e3, e4, e5, e6, e7, e8, e9, e10, e11, e12, e13, e14, e15⟩ := idx_facts t
  funext a; apply Fin.ext
  match a with
  | ⟨0, _⟩ => show win0_0.index t (0 : Fin 2) * 2048 + 1 * p.val = t.val * 2048 + p.val; omega
  | ⟨1, _⟩ => show win0_0.index t (1 : Fin 2) * 128 + 1 * l.val = l.val; omega
theorem emb_tile1 (t : Fin cfg0.N) (p : Fin 2048) (l : Fin 128) :
    ((cfg0.win 1).blk t).view.emb (ix2 p l) = ix2 (row t p) l := by
  obtain ⟨e0, e1, e2, e3, e4, e5, e6, e7, e8, e9, e10, e11, e12, e13, e14, e15⟩ := idx_facts t
  funext a; apply Fin.ext
  match a with
  | ⟨0, _⟩ => show win0_1.index t (0 : Fin 2) * 2048 + 1 * p.val = t.val * 2048 + p.val; omega
  | ⟨1, _⟩ => show win0_1.index t (1 : Fin 2) * 128 + 1 * l.val = l.val; omega
theorem emb_tile2 (t : Fin cfg0.N) (p : Fin 2048) (l : Fin 128) :
    ((cfg0.win 2).blk t).view.emb (ix2 p l) = ix2 (row t p) l := by
  obtain ⟨e0, e1, e2, e3, e4, e5, e6, e7, e8, e9, e10, e11, e12, e13, e14, e15⟩ := idx_facts t
  funext a; apply Fin.ext
  match a with
  | ⟨0, _⟩ => show win0_2.index t (0 : Fin 2) * 2048 + 1 * p.val = t.val * 2048 + p.val; omega
  | ⟨1, _⟩ => show win0_2.index t (1 : Fin 2) * 128 + 1 * l.val = l.val; omega
theorem emb_tile6 (t : Fin cfg0.N) (p : Fin 2048) (l : Fin 128) :
    ((cfg0.win 6).blk t).view.emb (ix2 p l) = ix2 (row t p) l := by
  obtain ⟨e0, e1, e2, e3, e4, e5, e6, e7, e8, e9, e10, e11, e12, e13, e14, e15⟩ := idx_facts t
  funext a; apply Fin.ext
  match a with
  | ⟨0, _⟩ => show win0_6.index t (0 : Fin 2) * 2048 + 1 * p.val = t.val * 2048 + p.val; omega
  | ⟨1, _⟩ => show win0_6.index t (1 : Fin 2) * 128 + 1 * l.val = l.val; omega
theorem emb_tile7 (t : Fin cfg0.N) (p : Fin 2048) (l : Fin 128) :
    ((cfg0.win 7).blk t).view.emb (ix2 p l) = ix2 (row t p) l := by
  obtain ⟨e0, e1, e2, e3, e4, e5, e6, e7, e8, e9, e10, e11, e12, e13, e14, e15⟩ := idx_facts t
  funext a; apply Fin.ext
  match a with
  | ⟨0, _⟩ => show win0_7.index t (0 : Fin 2) * 2048 + 1 * p.val = t.val * 2048 + p.val; omega
  | ⟨1, _⟩ => show win0_7.index t (1 : Fin 2) * 128 + 1 * l.val = l.val; omega
theorem emb_whole3 (t : Fin cfg0.N) (y : S128x512.Idx) : ((cfg0.win 3).blk t).view.emb y = y := by
  obtain ⟨e0, e1, e2, e3, e4, e5, e6, e7, e8, e9, e10, e11, e12, e13, e14, e15⟩ := idx_facts t
  funext a; apply Fin.ext
  match a with
  | ⟨0, _⟩ => show win0_3.index t (0 : Fin 2) * 128 + 1 * (y 0).val = (y 0).val; omega
  | ⟨1, _⟩ => show win0_3.index t (1 : Fin 2) * 512 + 1 * (y 1).val = (y 1).val; omega
theorem emb_whole4 (t : Fin cfg0.N) (y : S128x512.Idx) : ((cfg0.win 4).blk t).view.emb y = y := by
  obtain ⟨e0, e1, e2, e3, e4, e5, e6, e7, e8, e9, e10, e11, e12, e13, e14, e15⟩ := idx_facts t
  funext a; apply Fin.ext
  match a with
  | ⟨0, _⟩ => show win0_4.index t (0 : Fin 2) * 128 + 1 * (y 0).val = (y 0).val; omega
  | ⟨1, _⟩ => show win0_4.index t (1 : Fin 2) * 512 + 1 * (y 1).val = (y 1).val; omega
theorem emb_whole5 (t : Fin cfg0.N) (y : S1x512.Idx) : ((cfg0.win 5).blk t).view.emb y = y := by
  obtain ⟨e0, e1, e2, e3, e4, e5, e6, e7, e8, e9, e10, e11, e12, e13, e14, e15⟩ := idx_facts t
  funext a; apply Fin.ext
  match a with
  | ⟨0, _⟩ => show win0_5.index t (0 : Fin 2) * 1 + 1 * (y 0).val = (y 0).val; omega
  | ⟨1, _⟩ => show win0_5.index t (1 : Fin 2) * 512 + 1 * (y 1).val = (y 1).val; omega

/-! ## The six blocks read at an entry -/

theorem rd0 (c : Dev nD) (t : Fin cfg0.N) (p : Fin 2048) (l : Fin 128) : iblk m c 0 t (ix2 p l) = aX m c (ix2 (row t p) l) := by
  show V m c main_arg0 (((cfg0.win 0).blk t).view.emb (ix2 p l)) = _
  rw [emb_tile0]
theorem rd1 (c : Dev nD) (t : Fin cfg0.N) (p : Fin 2048) (l : Fin 128) : iblk m c 1 t (ix2 p l) = aH m c (ix2 (row t p) l) := by
  show V m c main_arg1 (((cfg0.win 1).blk t).view.emb (ix2 p l)) = _
  rw [emb_tile1]
theorem rd2 (c : Dev nD) (t : Fin cfg0.N) (p : Fin 2048) (l : Fin 128) : iblk m c 2 t (ix2 p l) = aC m c (ix2 (row t p) l) := by
  show V m c main_arg2 (((cfg0.win 2).blk t).view.emb (ix2 p l)) = _
  rw [emb_tile2]
theorem rd3 (c : Dev nD) (t : Fin cfg0.N) : iblk m c 3 t = aWX m c := by
  funext y
  show V m c main_v3 (((cfg0.win 3).blk t).view.emb y) = _
  rw [emb_whole3]
theorem rd4 (c : Dev nD) (t : Fin cfg0.N) : iblk m c 4 t = aWH m c := by
  funext y
  show V m c main_v4 (((cfg0.win 4).blk t).view.emb y) = _
  rw [emb_whole4]
theorem rd5 (c : Dev nD) (t : Fin cfg0.N) (j : Fin 512) : iblk m c 5 t (ix2 (0 : Fin 1) j) = aB m c j := by
  show V m c main_v5 (((cfg0.win 5).blk t).view.emb (ix2 (0 : Fin 1) j)) = _
  rw [emb_whole5]

/-! ## What a tile writes back -/

/-- What tile `t` writes back to the new hidden state's array is block `t` of `GH`. -/
theorem flushed6_eq (c : Dev nD) (t : Fin cfg0.N) :
    (dats m 0 c).flushed 6 t = ((cfg0.win 6).blk t).view.read (Elt Ideal) (GH m c) := by
  show (cfg0.win 6).cut (grid0.coords t) ((dats m 0 c).after 6 t) = _
  rw [after0_6]
  unfold outH
  rw [View.canon_unit_zero hz]
  simp only [View.ld_unit_zero (S := S2048x128) hz, View.ld_unit_zero (S := S128x512) hz, View.ld_unit_zero (S := S1x512) hz]
  funext j
  obtain ⟨p, q, rfl⟩ : ∃ (p : Fin 2048) (q : Fin 128), j = ix2 p q := ⟨j 0, j 1, eq_ix2 j⟩
  refine (pay3_apply (iblk m c 0 t) (iblk m c 1 t) (iblk m c 2 t) (iblk m c 3 t) (iblk m c 4 t) (iblk m c 5 t) p q).trans ?_
  show _ = GH m c (((cfg0.win 6).blk t).view.emb (ix2 p q))
  rw [emb_tile6]
  show cellH (fun l => iblk m c 0 t (ix2 p l)) (fun l => iblk m c 1 t (ix2 p l)) (iblk m c 2 t (ix2 p q)) (iblk m c 3 t) (iblk m c 4 t) (fun j => iblk m c 5 t (ix2 (0 : Fin 1) j)) q
    = cellH (fun l => aX m c (ix2 (row t p) l)) (fun l => aH m c (ix2 (row t p) l)) (aC m c (ix2 (row t p) q)) (aWX m c) (aWH m c) (aB m c) q
  rw [rd3, rd4]
  simp only [rd0, rd1, rd2, rd5]

/-- What tile `t` writes back to the new cell state's array is block `t` of `GC`. -/
theorem flushed7_eq (c : Dev nD) (t : Fin cfg0.N) :
    (dats m 0 c).flushed 7 t = ((cfg0.win 7).blk t).view.read (Elt Ideal) (GC m c) := by
  show (cfg0.win 7).cut (grid0.coords t) ((dats m 0 c).after 7 t) = _
  rw [after0_7]
  unfold outC
  rw [View.canon_unit_zero hz]
  simp only [View.ld_unit_zero (S := S2048x128) hz, View.ld_unit_zero (S := S128x512) hz, View.ld_unit_zero (S := S1x512) hz]
  funext j
  obtain ⟨p, q, rfl⟩ : ∃ (p : Fin 2048) (q : Fin 128), j = ix2 p q := ⟨j 0, j 1, eq_ix2 j⟩
  refine (pay2_apply (iblk m c 0 t) (iblk m c 1 t) (iblk m c 2 t) (iblk m c 3 t) (iblk m c 4 t) (iblk m c 5 t) p q).trans ?_
  show _ = GC m c (((cfg0.win 7).blk t).view.emb (ix2 p q))
  rw [emb_tile7]
  show cellC (fun l => iblk m c 0 t (ix2 p l)) (fun l => iblk m c 1 t (ix2 p l)) (iblk m c 2 t (ix2 p q)) (iblk m c 3 t) (iblk m c 4 t) (fun j => iblk m c 5 t (ix2 (0 : Fin 1) j)) q
    = cellC (fun l => aX m c (ix2 (row t p) l)) (fun l => aH m c (ix2 (row t p) l)) (aC m c (ix2 (row t p) q)) (aWX m c) (aWH m c) (aB m c) q
  rw [rd3, rd4]
  simp only [rd0, rd1, rd2, rd5]

/-! ## The tiles cover the results -/

theorem mem_blk6 (t : Fin cfg0.N) (i : S65536x128.Idx) :
    i ∈ ((cfg0.win 6).blk t).view.set ↔ ∀ a : Fin 2, win0_6.index t a * S2048x128.size a ≤ (i a).val ∧ (i a).val < win0_6.index t a * S2048x128.size a + S2048x128.size a := by
  show i ∈ ((View.whole main_v6_0).slice (win0_6.rect t)).set ↔ _
  rw [View.set_slice_whole, Rect.mem_set_unit]
  exact Iff.rfl

/-- Every row lies in the tile numbered by its quotient by 2048. -/
theorem cover6 (i : S65536x128.Idx) : ∃ t : Fin cfg0.N, (cfg0.win 6).flush t = true ∧ i ∈ ((cfg0.win 6).blk t).view.set := by
  have hi0 : (i 0).val < 65536 := (i 0).isLt
  have hi1 : (i 1).val < 128 := (i 1).isLt
  have hN : cfg0.N = 32 := N_0
  have hlt : (i 0).val / 2048 < cfg0.N := by rw [hN]; omega
  obtain ⟨e0, e1, e2, e3, e4, e5, e6, e7, e8, e9, e10, e11, e12, e13, e14, e15⟩ := idx_facts ⟨(i 0).val / 2048, hlt⟩
  refine ⟨⟨(i 0).val / 2048, hlt⟩, flush0_6 _, ?_⟩
  rw [mem_blk6]
  intro a
  match a with
  | ⟨0, _⟩ =>
    show win0_6.index ⟨(i 0).val / 2048, hlt⟩ (0 : Fin 2) * 2048 ≤ (i 0).val ∧ (i 0).val < win0_6.index ⟨(i 0).val / 2048, hlt⟩ (0 : Fin 2) * 2048 + 2048
    simp only at e12 e14
    omega
  | ⟨1, _⟩ =>
    show win0_6.index ⟨(i 0).val / 2048, hlt⟩ (1 : Fin 2) * 128 ≤ (i 1).val ∧ (i 1).val < win0_6.index ⟨(i 0).val / 2048, hlt⟩ (1 : Fin 2) * 128 + 128
    omega

theorem mem_blk7 (t : Fin cfg0.N) (i : S65536x128.Idx) :
    i ∈ ((cfg0.win 7).blk t).view.set ↔ ∀ a : Fin 2, win0_7.index t a * S2048x128.size a ≤ (i a).val ∧ (i a).val < win0_7.index t a * S2048x128.size a + S2048x128.size a := by
  show i ∈ ((View.whole main_v6_1).slice (win0_7.rect t)).set ↔ _
  rw [View.set_slice_whole, Rect.mem_set_unit]
  exact Iff.rfl

/-- Every row lies in the tile numbered by its quotient by 2048. -/
theorem cover7 (i : S65536x128.Idx) : ∃ t : Fin cfg0.N, (cfg0.win 7).flush t = true ∧ i ∈ ((cfg0.win 7).blk t).view.set := by
  have hi0 : (i 0).val < 65536 := (i 0).isLt
  have hi1 : (i 1).val < 128 := (i 1).isLt
  have hN : cfg0.N = 32 := N_0
  have hlt : (i 0).val / 2048 < cfg0.N := by rw [hN]; omega
  obtain ⟨e0, e1, e2, e3, e4, e5, e6, e7, e8, e9, e10, e11, e12, e13, e14, e15⟩ := idx_facts ⟨(i 0).val / 2048, hlt⟩
  refine ⟨⟨(i 0).val / 2048, hlt⟩, flush0_7 _, ?_⟩
  rw [mem_blk7]
  intro a
  match a with
  | ⟨0, _⟩ =>
    show win0_7.index ⟨(i 0).val / 2048, hlt⟩ (0 : Fin 2) * 2048 ≤ (i 0).val ∧ (i 0).val < win0_7.index ⟨(i 0).val / 2048, hlt⟩ (0 : Fin 2) * 2048 + 2048
    simp only at e12 e14
    omega
  | ⟨1, _⟩ =>
    show win0_7.index ⟨(i 0).val / 2048, hlt⟩ (1 : Fin 2) * 128 ≤ (i 1).val ∧ (i 1).val < win0_7.index ⟨(i 0).val / 2048, hlt⟩ (1 : Fin 2) * 128 + 128
    omega

/-! ## The two result arrays after the run -/

theorem finalH (c : Dev nD) : (dats m 0 c).arrAt 6 cfg0.N = GH m c :=
  (dats m 0 c).arrAt_eq_of_cover 6 (GH m c) (fun t _ => flushed6_eq m c t) cover6

theorem finalC (c : Dev nD) : (dats m 0 c).arrAt 7 cfg0.N = GC m c :=
  (dats m 0 c).arrAt_eq_of_cover 7 (GC m c) (fun t _ => flushed7_eq m c t) cover7

/-- The run, read: the new hidden state's and the new cell state's arrays end at `GH` and `GC`, the arguments as launched. -/
theorem run : θ_run defs (onTc (τ := τ) (main (F := Ideal))) ⟨m, fun _ => 0, ρ⟩ fun r => ∀ c : Dev nD,
      r.2.mem ((c.tc : Thread nD τ).loc main_v6_0) = GH m c
      ∧ r.2.mem ((c.tc : Thread nD τ).loc main_v6_1) = GC m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c => ⟨((h c).1 6).trans (finalH m c), ((h c).1 7).trans (finalC m c),
      kept_args m (dats m) (A_eq m) r h c⟩)
    (run_main m ρ)

/-! ## The host operations' results the region finds -/

/-- The transposed stack of the four input-side weight matrices. -/
theorem aWX_eq (c : Dev nD) : aWX m c = transpose S128x512 [1, 0] (concatenate S512x128 0
      [⟨S128x128, m ((c.tc : Thread nD τ).loc main_arg3)⟩, ⟨S128x128, m ((c.tc : Thread nD τ).loc main_arg6)⟩,
       ⟨S128x128, m ((c.tc : Thread nD τ).loc main_arg9)⟩, ⟨S128x128, m ((c.tc : Thread nD τ).loc main_arg12)⟩]
      concatenates_S128x128_S128x128_S128x128_S128x128_S512x128_d0) transposes_S512x128_S128x512_1_0 := by
  dsimp only [aWX, V, hostOps0]; after_results; rfl

/-- The transposed stack of the four hidden-side weight matrices. -/
theorem aWH_eq (c : Dev nD) : aWH m c = transpose S128x512 [1, 0] (concatenate S512x128 0
      [⟨S128x128, m ((c.tc : Thread nD τ).loc main_arg4)⟩, ⟨S128x128, m ((c.tc : Thread nD τ).loc main_arg7)⟩,
       ⟨S128x128, m ((c.tc : Thread nD τ).loc main_arg10)⟩, ⟨S128x128, m ((c.tc : Thread nD τ).loc main_arg13)⟩]
      concatenates_S128x128_S128x128_S128x128_S128x128_S512x128_d0) transposes_S512x128_S128x512_1_0 := by
  dsimp only [aWH, V, hostOps0]; after_results; rfl

/-- The stack of the four biases, laid out as a row. -/
theorem aBrow_eq (c : Dev nD) : aBrow m c = shapeCast S1x512 (concatenate S512 0
      [⟨S128, m ((c.tc : Thread nD τ).loc main_arg5)⟩, ⟨S128, m ((c.tc : Thread nD τ).loc main_arg8)⟩,
       ⟨S128, m ((c.tc : Thread nD τ).loc main_arg11)⟩, ⟨S128, m ((c.tc : Thread nD τ).loc main_arg14)⟩]
      concatenates_S128_S128_S128_S128_S512_d0) shapeCasts_S512_S1x512 := by
  dsimp only [aBrow, V, hostOps0]; after_results; rfl

/-- Entry j of the row is entry j of the stack. -/
theorem aB_eq (c : Dev nD) : aB m c = fun j => (concatenate S512 0
      [⟨S128, m ((c.tc : Thread nD τ).loc main_arg5)⟩, ⟨S128, m ((c.tc : Thread nD τ).loc main_arg8)⟩,
       ⟨S128, m ((c.tc : Thread nD τ).loc main_arg11)⟩, ⟨S128, m ((c.tc : Thread nD τ).loc main_arg14)⟩]
      concatenates_S128_S128_S128_S128_S512_d0 : FVec Ideal S512 .f32) (ix1 j) := by
  funext j
  show aBrow m c (ix2 (0 : Fin 1) j) = _
  rw [aBrow_eq]
  refine shapeCast_apply _ _ (ix2 (0 : Fin 1) j) (ix1 j) ?_
  rw [Shape.rowMajor_val_one, Shape.rowMajor_val_two]
  show j.val = (0 : ℕ) * 512 + j.val
  omega

/-! ## The two results over the launch memory -/

/-- The new hidden state's array, as the cell's formula over the launch arguments. -/
theorem GH_eq (c : Dev nD) : GH m c
    = newH (m ((c.tc : Thread nD τ).loc main_arg0)) (m ((c.tc : Thread nD τ).loc main_arg1)) (m ((c.tc : Thread nD τ).loc main_arg2))
        (transpose S128x512 [1, 0] (concatenate S512x128 0
      [⟨S128x128, m ((c.tc : Thread nD τ).loc main_arg3)⟩, ⟨S128x128, m ((c.tc : Thread nD τ).loc main_arg6)⟩,
       ⟨S128x128, m ((c.tc : Thread nD τ).loc main_arg9)⟩, ⟨S128x128, m ((c.tc : Thread nD τ).loc main_arg12)⟩]
      concatenates_S128x128_S128x128_S128x128_S128x128_S512x128_d0) transposes_S512x128_S128x512_1_0)
        (transpose S128x512 [1, 0] (concatenate S512x128 0
      [⟨S128x128, m ((c.tc : Thread nD τ).loc main_arg4)⟩, ⟨S128x128, m ((c.tc : Thread nD τ).loc main_arg7)⟩,
       ⟨S128x128, m ((c.tc : Thread nD τ).loc main_arg10)⟩, ⟨S128x128, m ((c.tc : Thread nD τ).loc main_arg13)⟩]
      concatenates_S128x128_S128x128_S128x128_S128x128_S512x128_d0) transposes_S512x128_S128x512_1_0)
        (fun j => (concatenate S512 0
      [⟨S128, m ((c.tc : Thread nD τ).loc main_arg5)⟩, ⟨S128, m ((c.tc : Thread nD τ).loc main_arg8)⟩,
       ⟨S128, m ((c.tc : Thread nD τ).loc main_arg11)⟩, ⟨S128, m ((c.tc : Thread nD τ).loc main_arg14)⟩]
      concatenates_S128_S128_S128_S128_S512_d0 : FVec Ideal S512 .f32) (ix1 j)) := by
  show newH (V m c main_arg0) (V m c main_arg1) (V m c main_arg2) (aWX m c) (aWH m c) (aB m c) = _
  rw [V_main_arg0 m c, V_main_arg1 m c, V_main_arg2 m c, aWX_eq, aWH_eq, aB_eq]

/-- The new cell state's array, likewise. -/
theorem GC_eq (c : Dev nD) : GC m c
    = newC (m ((c.tc : Thread nD τ).loc main_arg0)) (m ((c.tc : Thread nD τ).loc main_arg1)) (m ((c.tc : Thread nD τ).loc main_arg2))
        (transpose S128x512 [1, 0] (concatenate S512x128 0
      [⟨S128x128, m ((c.tc : Thread nD τ).loc main_arg3)⟩, ⟨S128x128, m ((c.tc : Thread nD τ).loc main_arg6)⟩,
       ⟨S128x128, m ((c.tc : Thread nD τ).loc main_arg9)⟩, ⟨S128x128, m ((c.tc : Thread nD τ).loc main_arg12)⟩]
      concatenates_S128x128_S128x128_S128x128_S128x128_S512x128_d0) transposes_S512x128_S128x512_1_0)
        (transpose S128x512 [1, 0] (concatenate S512x128 0
      [⟨S128x128, m ((c.tc : Thread nD τ).loc main_arg4)⟩, ⟨S128x128, m ((c.tc : Thread nD τ).loc main_arg7)⟩,
       ⟨S128x128, m ((c.tc : Thread nD τ).loc main_arg10)⟩, ⟨S128x128, m ((c.tc : Thread nD τ).loc main_arg13)⟩]
      concatenates_S128x128_S128x128_S128x128_S128x128_S512x128_d0) transposes_S512x128_S128x512_1_0)
        (fun j => (concatenate S512 0
      [⟨S128, m ((c.tc : Thread nD τ).loc main_arg5)⟩, ⟨S128, m ((c.tc : Thread nD τ).loc main_arg8)⟩,
       ⟨S128, m ((c.tc : Thread nD τ).loc main_arg11)⟩, ⟨S128, m ((c.tc : Thread nD τ).loc main_arg14)⟩]
      concatenates_S128_S128_S128_S128_S512_d0 : FVec Ideal S512 .f32) (ix1 j)) := by
  show newC (V m c main_arg0) (V m c main_arg1) (V m c main_arg2) (aWX m c) (aWH m c) (aB m c) = _
  rw [V_main_arg0 m c, V_main_arg1 m c, V_main_arg2 m c, aWX_eq, aWH_eq, aB_eq]

end Cert.KernelIdeal.Val

end
-- ==== Proof.RefCell.lean ====
/-
  The reference's two results, read.  On the host the stacked pre-activations are two products — each, at an entry,
  the plain sum over the 128 contracted entries — plus the stacked bias repeated down the batch rows; the logistic
  is spelt 1 / (1 + e^(−x)) with the constant 1.0, which on the extended reals is the logistic function itself; and
  the hyperbolic tangent is the one function.  Gate by gate the 128 columns are cut out of the 512 stacked ones, so
  each result, at batch row r and hidden unit q, is the cell's formula over the argument arrays.
-/
import proofs.«171560_j74612171866302_1_alg».proof.Proof.Gen.ReferenceIdeal.Run
import proofs.«171560_j74612171866302_1_alg».proof.Proof.Cell
import proofs.«171560_j74612171866302_1_alg».proof.Proof.LibMatmulPlain

set_option maxRecDepth 16384

noncomputable section

namespace Cert.ReferenceIdeal.RefCell

open Cert.ReferenceIdeal Cert.ReferenceIdeal.Gen Cert.ReferenceIdeal.Value Idealize.ShloMosaic Idealize.ShloMosaic.TcCoe Idealize.ShloMosaic.ValueIdx Idealize.SL.Sem Cert.Lstm

/-- The host's product contracts the left operand's columns with the right operand's rows, with no batch axis. -/
theorem dot_plain : Cert.Gcn.IsPlain dot_S65536x128_S128x512_S65536x512_1_0_0_1_n_n := ⟨rfl, rfl, rfl, rfl, rfl, rfl⟩

/-- The word of 1.0 is the real 1. -/
theorem one_word : Ideal.ofBits .f32 0x3F800000#32 = 1 := by simp [Ideal.ofBits, Ideal.ieee, -EReal.coe_mul]; norm_num

/-- The constant 1.0 over the batch. -/
def ones : FVec Ideal S65536x128 .f32 := broadcastInDim S65536x128 ![] bcast_S_S65536x128 (constant S_ .f32 0x3F800000#32)

theorem ones_apply (j : S65536x128.Idx) : ones j = 1 := by
  unfold ones broadcastInDim
  exact one_word

/-- The host's spelling of the logistic function. -/
def sigR (x : FVec Ideal S65536x128 .f32) : FVec Ideal S65536x128 .f32 := Host.divf ones (addf ones (Host.exp (Host.negf x)))

theorem sigR_apply (x : FVec Ideal S65536x128 .f32) (j : S65536x128.Idx) : sigR x j = Ideal.logistic (x j) := by
  show Ideal.div (ones j) (ones j + Ideal.exp (-(x j))) = _
  rw [ones_apply]
  rfl

/-- The stacked pre-activations over the batch. -/
def gatesR (X H : FVec Ideal S65536x128 .f32) (WX WH : FVec Ideal S128x512 .f32) (Bv : FVec Ideal S512 .f32) : FVec Ideal S65536x512 .f32 :=
  addf (addf (Host.dotGeneral dot_S65536x128_S128x512_S65536x512_1_0_0_1_n_n none X WX)
      (Host.dotGeneral dot_S65536x128_S128x512_S65536x512_1_0_0_1_n_n none H WH))
    (broadcastInDim S65536x512 ![0, 1] bcast_S1x512_S65536x512_0_1 (broadcastInDim S1x512 ![1] bcast_S512_S1x512_1 Bv))

theorem gatesR_apply (X H : FVec Ideal S65536x128 .f32) (WX WH : FVec Ideal S128x512 .f32) (Bv : FVec Ideal S512 .f32)
    (r : Fin 65536) (col : Fin 512) :
    gatesR X H WX WH Bv (ix2 r col) = pre (fun l => X (ix2 r l)) (fun l => H (ix2 r l)) WX WH (fun j => Bv (ix1 j)) col := by
  unfold gatesR pre
  simp only [addf_apply]
  rw [Cert.Gcn.dotGeneral_plain_apply _ dot_plain, Cert.Gcn.dotGeneral_plain_apply _ dot_plain]
  rw [broadcastInDim_apply _ _ _ (ix2 r col) (ix2 (0 : Fin 1) col) (fun a => by match a with | ⟨0, _⟩ => rfl | ⟨1, _⟩ => rfl)]
  rw [broadcastInDim_apply _ _ _ (ix2 (0 : Fin 1) col) (ix1 col) (fun a => by match a with | ⟨0, _⟩ => rfl)]

/-- The new cell state as the host computes it, over variables. -/
def refC (X H C : FVec Ideal S65536x128 .f32) (WX WH : FVec Ideal S128x512 .f32) (Bv : FVec Ideal S512 .f32) : FVec Ideal S65536x128 .f32 :=
  addf (mulf (sigR (extractStridedSlice S65536x128 ![0, 128] (gatesR X H WX WH Bv) slices_S65536x512_S65536x128_0_128)) C)
    (mulf (sigR (extractStridedSlice S65536x128 ![0, 0] (gatesR X H WX WH Bv) slices_S65536x512_S65536x128_0_0))
      (Host.tanh (extractStridedSlice S65536x128 ![0, 256] (gatesR X H WX WH Bv) slices_S65536x512_S65536x128_0_256)))

/-- The new hidden state as the host computes it. -/
def refH (X H C : FVec Ideal S65536x128 .f32) (WX WH : FVec Ideal S128x512 .f32) (Bv : FVec Ideal S512 .f32) : FVec Ideal S65536x128 .f32 :=
  mulf (sigR (extractStridedSlice S65536x128 ![0, 384] (gatesR X H WX WH Bv) slices_S65536x512_S65536x128_0_384))
    (Host.tanh (refC X H C WX WH Bv))

theorem refC_eq (X H C : FVec Ideal S65536x128 .f32) (WX WH : FVec Ideal S128x512 .f32) (Bv : FVec Ideal S512 .f32) :
    refC X H C WX WH Bv = newC X H C WX WH (fun j => Bv (ix1 j)) := by
  funext j
  obtain ⟨r, q, rfl⟩ : ∃ (r : Fin 65536) (q : Fin 128), j = ix2 r q := ⟨j 0, j 1, eq_ix2 j⟩
  unfold refC
  simp only [addf_apply, mulf_apply, sigR_apply, Host.tanh, Ideal.hostUnary_tanh_def]
  rw [gate_slice_apply 1 (by omega) _ rfl rfl, gate_slice_apply 0 (by omega) _ rfl rfl, gate_slice_apply 2 (by omega) _ rfl rfl]
  simp only [gatesR_apply]
  rfl

theorem refH_eq (X H C : FVec Ideal S65536x128 .f32) (WX WH : FVec Ideal S128x512 .f32) (Bv : FVec Ideal S512 .f32) :
    refH X H C WX WH Bv = newH X H C WX WH (fun j => Bv (ix1 j)) := by
  funext j
  obtain ⟨r, q, rfl⟩ : ∃ (r : Fin 65536) (q : Fin 128), j = ix2 r q := ⟨j 0, j 1, eq_ix2 j⟩
  unfold refH
  simp only [mulf_apply, sigR_apply, Host.tanh, Ideal.hostUnary_tanh_def]
  rw [gate_slice_apply 3 (by omega) _ rfl rfl, refC_eq]
  simp only [gatesR_apply]
  rfl

/-! ## The run's two results -/

variable (m : (ℓ : Loc nD τ sig) → Buf (Elt Ideal) ℓ)

/-- The stacked and transposed input-side weights, the hidden-side ones, and the stacked bias, of the launch memory. -/
abbrev wX (c : Dev nD) : FVec Ideal S128x512 .f32 := transpose S128x512 [1, 0] (concatenate S512x128 0
      [⟨S128x128, m ((c.tc : Thread nD τ).loc main_arg3)⟩, ⟨S128x128, m ((c.tc : Thread nD τ).loc main_arg6)⟩,
       ⟨S128x128, m ((c.tc : Thread nD τ).loc main_arg9)⟩, ⟨S128x128, m ((c.tc : Thread nD τ).loc main_arg12)⟩]
      concatenates_S128x128_S128x128_S128x128_S128x128_S512x128_d0) transposes_S512x128_S128x512_1_0
abbrev wH (c : Dev nD) : FVec Ideal S128x512 .f32 := transpose S128x512 [1, 0] (concatenate S512x128 0
      [⟨S128x128, m ((c.tc : Thread nD τ).loc main_arg4)⟩, ⟨S128x128, m ((c.tc : Thread nD τ).loc main_arg7)⟩,
       ⟨S128x128, m ((c.tc : Thread nD τ).loc main_arg10)⟩, ⟨S128x128, m ((c.tc : Thread nD τ).loc main_arg13)⟩]
      concatenates_S128x128_S128x128_S128x128_S128x128_S512x128_d0) transposes_S512x128_S128x512_1_0
abbrev bS (c : Dev nD) : FVec Ideal S512 .f32 := concatenate S512 0
      [⟨S128, m ((c.tc : Thread nD τ).loc main_arg5)⟩, ⟨S128, m ((c.tc : Thread nD τ).loc main_arg8)⟩,
       ⟨S128, m ((c.tc : Thread nD τ).loc main_arg11)⟩, ⟨S128, m ((c.tc : Thread nD τ).loc main_arg14)⟩]
      concatenates_S128_S128_S128_S128_S512_d0

/-- The second result, the new cell state, is the cell's formula over the arguments. -/
theorem res_out1_eq (c : Dev nD) : res_out1 m c
    = newC (m ((c.tc : Thread nD τ).loc main_arg0)) (m ((c.tc : Thread nD τ).loc main_arg1)) (m ((c.tc : Thread nD τ).loc main_arg2))
        (wX m c) (wH m c) (fun j => bS m c (ix1 j)) := by
  show res_main_v36 m c = _
  unfold res_main_v36
  exact refC_eq _ _ _ _ _ _

/-- The first result, the new hidden state, likewise. -/
theorem res_out0_eq (c : Dev nD) : res_out0 m c
    = newH (m ((c.tc : Thread nD τ).loc main_arg0)) (m ((c.tc : Thread nD τ).loc main_arg1)) (m ((c.tc : Thread nD τ).loc main_arg2))
        (wX m c) (wH m c) (fun j => bS m c (ix1 j)) := by
  show res_main_v38 m c = _
  unfold res_main_v38
  exact refH_eq _ _ _ _ _ _

end Cert.ReferenceIdeal.RefCell

end
-- ==== Proof.lean ====
/-
  The certificate of the LSTM cell: a Pallas kernel over 32 tiles of 2048 batch rows against the jnp reference.

  Both programs stack the four gates' weight matrices and biases, transpose the stacks, and compute, for batch row r
  and hidden unit q, with pre col = (Σ_l x[r,l] · WX[l,col] + Σ_l h[r,l] · WH[l,col]) + B[col],

      c' = σ(pre (128 + q)) · c[r,q] + σ(pre q) · tanh (pre (256 + q)),     h' = σ(pre (384 + q)) · tanh c'.

  The kernel takes the products tile by tile on bf16 operands into an f32 zero accumulator and applies the logistic
  as one operation; the reference takes them over the whole batch and spells the logistic 1 / (1 + e^(−x)).  On the
  extended reals a change of float format is the identity, each product at an entry is the plain sum over the 128
  contracted entries, and the one-operation logistic is that expression, so the two results are the same function of
  the arguments entry by entry, with no appeal to finiteness.

  The frames of the two kernel programs are the pipeline's run over the body's triple (the body reads six blocks and
  overwrites its two result tiles whole); the reference's frame is its run read back; the idealization changed
  nothing, so there is nothing to preserve.
-/
import proofs.«171560_j74612171866302_1_alg».proof.Defs
import proofs.«171560_j74612171866302_1_alg».proof.Proof.Gen.Kernel
import proofs.«171560_j74612171866302_1_alg».proof.Proof.Gen.KernelIdeal
import proofs.«171560_j74612171866302_1_alg».proof.Proof.Gen.ReferenceIdeal
import proofs.«171560_j74612171866302_1_alg».proof.Proof.Gen.Pre_finite_inputs
import proofs.«171560_j74612171866302_1_alg».proof.Proof.BitsFrame
import proofs.«171560_j74612171866302_1_alg».proof.Proof.IdealFrame
import proofs.«171560_j74612171866302_1_alg».proof.Proof.IdealValue
import proofs.«171560_j74612171866302_1_alg».proof.Proof.RefCell
import Idealize.ShloMosaic.Adequacy
import Idealize.ShloMosaic.Init

noncomputable section

namespace Cert.Proof

open Idealize.ShloMosaic Idealize.SL.Sem

/-- The word-level kernel program runs to the end, faults nowhere and leaves its arguments as launched. -/
theorem frame_k : Cert.frame_Kernel := fun m ρ _ => Cert.Kernel.Frm.frame m ρ

/-- So does the idealized kernel program. -/
theorem frame_ki : Cert.frame_KernelIdeal := fun m ρ _ => Cert.KernelIdeal.Frm.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories agreeing on the fifteen arguments the idealized kernel's two result arrays and the reference's two
    results are the cell's new hidden state and new cell state over those arguments. -/
theorem algebraic : Cert.algebraic_KernelIdeal_ReferenceIdeal := by
  intro m ρ m' ρ' _ hagree
  refine ⟨fun c => Cert.KernelIdeal.Val.GH m c, fun c => Cert.KernelIdeal.Val.GC m c, Cert.KernelIdeal.Val.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14⟩ := hagree c
    refine (Cert.ReferenceIdeal.RefCell.res_out0_eq m' c).trans ?_
    dsimp only [Cert.ReferenceIdeal.RefCell.wX, Cert.ReferenceIdeal.RefCell.wH, Cert.ReferenceIdeal.RefCell.bS]
    rw [a0, a1, a2, a3, a4, a5, a6, a7, a8, a9, a10, a11, a12, a13, a14]
    exact (Cert.KernelIdeal.Val.GH_eq m c).symm
  · obtain ⟨a0, a1, a2, a3, a4, a5, a6, a7, a8, a9, a10, a11, a12, a13, a14⟩ := hagree c
    refine (Cert.ReferenceIdeal.RefCell.res_out1_eq m' c).trans ?_
    dsimp only [Cert.ReferenceIdeal.RefCell.wX, Cert.ReferenceIdeal.RefCell.wH, Cert.ReferenceIdeal.RefCell.bS]
    rw [a0, a1, a2, a3, a4, a5, a6, a7, a8, a9, a10, a11, a12, a13, a14]
    exact (Cert.KernelIdeal.Val.GC_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
